-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16 : Shape := ⟨1, ![16]⟩
abbrev S16x8192x2048 : Shape := ⟨3, ![16, 8192, 2048]⟩
abbrev S16x8192 : Shape := ⟨2, ![16, 8192]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16x8192x2048 : S_.BroadcastsInDim S16x8192x2048 (![] : Fin 0 → Fin S16x8192x2048.rank)
  reducesTo_S16x8192x2048_S_d0_1_2 : S16x8192x2048.ReducesTo [0, 1, 2] S_
  bcast_S_S16x8192 : S_.BroadcastsInDim S16x8192 (![] : Fin 0 → Fin S16x8192.rank)
  reducesTo_S16x8192_S_d0_1 : S16x8192.ReducesTo [0, 1] S_

variable [Facts]

def fn {F : FTy → Type} [FloatOps F] (main_arg0 : FVec F S16384x2048 .f32) (main_arg1 : IVec S16 32) (main_arg2 : FVec F S16x8192x2048 .f32) (main_arg3 : FVec F S16x8192 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16x8192x2048 .f32 := Host.absf main_arg2
  let main_cst_0 : FVec F S_ .f32 := constant S_ .f32 0x7F800000#32
  let main_v5 : FVec F S16x8192x2048 .f32 := broadcastInDim S16x8192x2048 ![] bcast_S_S16x8192x2048 main_cst_0
  let main_v6 : IVec S16x8192x2048 1 := cmpf .olt main_v4 main_v5
  let main_c_1 : IVec S_ 1 := constantI S_ 1 1#1
  let main_v7 : IVec S_ 1 := (fun x v => Host.reduce IntOp.andi x v reducesTo_S16x8192x2048_S_d0_1_2 h_S_) main_v6 main_c_1
  let main_v8 : IVec S_ 1 := andi main_v3 main_v7
  let main_v9 : FVec F S16x8192 .f32 := Host.absf main_arg3
  let main_cst_2 : FVec F S_ .f32 := constant S_ .f32 0x7F800000#32
  let main_v10 : FVec F S16x8192 .f32 := broadcastInDim S16x8192 ![] bcast_S_S16x8192 main_cst_2
  let main_v11 : IVec S16x8192 1 := cmpf .olt main_v9 main_v10
  let main_c_3 : IVec S_ 1 := constantI S_ 1 1#1
  let main_v12 : IVec S_ 1 := (fun x v => Host.reduce IntOp.andi x v reducesTo_S16x8192_S_d0_1 h_S_) main_v11 main_c_3
  let main_v13 : IVec S_ 1 := andi main_v8 main_v12
  main_v13
-- ==== Kernel.lean ====
abbrev S16384x2048 : Shape := ⟨2, ![16384, 2048]⟩
abbrev S16 : Shape := ⟨1, ![16]⟩
abbrev S16x8192x2048 : Shape := ⟨3, ![16, 8192, 2048]⟩
abbrev S16x8192 : Shape := ⟨2, ![16, 8192]⟩
abbrev S16x1x8192 : Shape := ⟨3, ![16, 1, 8192]⟩
abbrev S16384x8192 : Shape := ⟨2, ![16384, 8192]⟩
abbrev S512x2048 : Shape := ⟨2, ![512, 2048]⟩
abbrev S1x1024x2048 : Shape := ⟨3, ![1, 1024, 2048]⟩
abbrev S1x1x1024 : Shape := ⟨3, ![1, 1, 1024]⟩
abbrev S512x1024 : Shape := ⟨2, ![512, 1024]⟩
abbrev S1024x2048 : Shape := ⟨2, ![1024, 2048]⟩
abbrev S1x1024 : Shape := ⟨2, ![1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16, .i32⟩
  | .hbm, ⟨2, _⟩ => ⟨S16x8192x2048, .f32⟩
  | .hbm, ⟨3, _⟩ => ⟨S16x8192, .f32⟩
  | .hbm, ⟨4, _⟩ => ⟨S16x1x8192, .f32⟩
  | .hbm, ⟨5, _⟩ => ⟨S16384x8192, .f32⟩
  | .local _ .vmem, ⟨0, _⟩ => ⟨S512x2048, .f32⟩
  | .local _ .vmem, ⟨1, _⟩ => ⟨S512x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  shapeCasts_S16x8192_S16x1x8192 : S16x8192.ShapeCasts S16x1x8192
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S16x8192x2048.size a
  hwx0_1 : ∀ i : grid0.Coords, EltTy.bits .f32 = 32 ∨ (Rect.block (s := S16x8192x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x8192.size a
  hwx0_2 : ∀ i : grid0.Coords, EltTy.bits .f32 = 32 ∨ (Rect.block (s := S16x1x8192) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x8192.size a
  hwx0_3 : ∀ i : grid0.Coords, EltTy.bits .f32 = 32 ∨ (Rect.block (s := S16384x8192) S512x1024.size (cc0_transform_3 i) (hinb0_3 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16 : Shape := ⟨1, ![16]⟩
abbrev S16x8192x2048 : Shape := ⟨3, ![16, 8192, 2048]⟩
abbrev S16x8192 : Shape := ⟨2, ![16, 8192]⟩
abbrev S16x1024x2048 : Shape := ⟨3, ![16, 1024, 2048]⟩
abbrev S16x1024x8192 : Shape := ⟨3, ![16, 1024, 8192]⟩
abbrev S16x1x8192 : Shape := ⟨3, ![16, 1, 8192]⟩
abbrev S16384x8192 : Shape := ⟨2, ![16384, 8192]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16, .i32⟩
  | .hbm, ⟨2, _⟩ => ⟨S16x8192x2048, .f32⟩
  | .hbm, ⟨3, _⟩ => ⟨S16x8192, .f32⟩
  | .hbm, ⟨4, _⟩ => ⟨S16x1024x2048, .f32⟩
  | .hbm, ⟨5, _⟩ => ⟨S16x1024x8192, .f32⟩
  | .hbm, ⟨6, _⟩ => ⟨S16x1x8192, .f32⟩
  | .hbm, ⟨7, _⟩ => ⟨S16x1024x8192, .f32⟩
  | .hbm, ⟨8, _⟩ => ⟨S16x1024x8192, .f32⟩
  | .hbm, ⟨9, _⟩ => ⟨S16384x8192, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  shapeCasts_S16384x2048_S16x1024x2048 : S16384x2048.ShapeCasts S16x1024x2048
  bcast_S16x8192_S16x1x8192_0_2 : S16x8192.BroadcastsInDim S16x1x8192 (![0, 2] : Fin 2 → Fin S16x1x8192.rank)
  bcast_S16x1x8192_S16x1024x8192_0_1_2 : S16x1x8192.BroadcastsInDim S16x1024x8192 (![0, 1, 2] : Fin 3 → Fin S16x1024x8192.rank)
  shapeCasts_S16x1024x8192_S16384x8192 : S16x1024x8192.ShapeCasts S16384x8192
  dot_S16x1024x2048_S16x8192x2048_S16x1024x8192_2_2_1_1_0_0_wf : DotDims.WF S16x1024x2048 S16x8192x2048 S16x1024x8192 [2] [2] [1] [1] [0] [0]

variable [Facts₀]

def dot_S16x1024x2048_S16x8192x2048_S16x1024x8192_2_2_1_1_0_0 : DotDims S16x1024x2048 S16x8192x2048 S16x1024x8192 where
  lhsContracting := [2]
  rhsContracting := [2]
  lhsNonContracting := [1]
  rhsNonContracting := [1]
  lhsBatch := [0]
  rhsBatch := [0]
  wf := dot_S16x1024x2048_S16x8192x2048_S16x1024x8192_2_2_1_1_0_0_wf

class Facts : Prop extends Facts₀ where

variable [Facts]
-- ==== Proof.Spec.lean ====
/-
  The function both programs compute, as one formula over whole arrays.

  Tokens arrive sorted by expert in runs of 1024 rows, so row `r` of the input belongs to expert `r / 1024`.
  The result at row `r`, feature `o` is the inner product of input row `r` with row `o` of that expert's
  weight matrix, plus that expert's bias at `o`:

      y[r, o] = Σ_k x[r, k] · w[r / 1024, o, k]  +  b[r / 1024, o].

  The bias is spelt twice — over the [16, 8192] array and over its [16, 1, 8192] reshape (the form the tiled
  program reads it in) — with the lemma that joins the two spellings. Nothing here needs the inputs to be
  finite: the two programs build the same sum of the same products in the extended reals.
-/
import Idealize.ShloMosaic.Lib.ValueIdx
import Idealize.ShloMosaic.Lib.Pipeline.Value

noncomputable section

open scoped BigOperators

namespace Cert.MoE

open Idealize.ShloMosaic Idealize.ShloMosaic.ValueIdx

/-- Tokens × input features. -/
abbrev SX : Shape := ⟨2, ![16384, 2048]⟩
/-- Experts × output features × input features. -/
abbrev SW : Shape := ⟨3, ![16, 8192, 2048]⟩
/-- Experts × output features. -/
abbrev SB : Shape := ⟨2, ![16, 8192]⟩
/-- The bias with a unit middle axis. -/
abbrev SB3 : Shape := ⟨3, ![16, 1, 8192]⟩
/-- Tokens × output features. -/
abbrev SY : Shape := ⟨2, ![16384, 8192]⟩

/-- The expert that owns token row `r`: rows come in runs of 1024 per expert. -/
def expertOf (r : Fin 16384) : Fin 16 := ⟨r.val / 1024, by have := r.isLt; omega⟩

theorem expertOf_val (r : Fin 16384) : (expertOf r).val = r.val / 1024 := rfl

/-- Row `r`, feature `o` of the grouped product, the bias read from the [16, 8192] array. -/
def moeAt (x : SX.Idx → EReal) (w : SW.Idx → EReal) (b : SB.Idx → EReal) (r : Fin 16384) (o : Fin 8192) : EReal :=
  (∑ k : Fin 2048, x (ix2 r k) * w (ix3 (expertOf r) o k)) + b (ix2 (expertOf r) o)

/-- The same entry, the bias read from the [16, 1, 8192] reshape. -/
def moeAt3 (x : SX.Idx → EReal) (w : SW.Idx → EReal) (b : SB3.Idx → EReal) (r : Fin 16384) (o : Fin 8192) : EReal :=
  (∑ k : Fin 2048, x (ix2 r k) * w (ix3 (expertOf r) o k)) + b (ix3 (expertOf r) (0 : Fin 1) o)

/-- The grouped product as a whole array. -/
def moe (x : SX.Idx → EReal) (w : SW.Idx → EReal) (b : SB.Idx → EReal) : SY.Idx → EReal :=
  fun i => moeAt x w b ⟨(i 0).val, (i 0).isLt⟩ ⟨(i 1).val, (i 1).isLt⟩

/-- The grouped product as a whole array, over the reshaped bias. -/
def moe3 (x : SX.Idx → EReal) (w : SW.Idx → EReal) (b : SB3.Idx → EReal) : SY.Idx → EReal :=
  fun i => moeAt3 x w b ⟨(i 0).val, (i 0).isLt⟩ ⟨(i 1).val, (i 1).isLt⟩

/-- Reading the reshaped bias at (e, 0, o) is reading the bias at (e, o): the two indices have the same
    row-major position `e · 8192 + o`. -/
theorem bias3_apply (b : SB.Idx → EReal) (h : SB.ShapeCasts SB3) (e : Fin 16) (o : Fin 8192) :
    shapeCast SB3 b h (ix3 e (0 : Fin 1) o) = b (ix2 e o) := by
  refine shapeCast_apply b h (ix3 e (0 : Fin 1) o) (ix2 e o) ?_
  rw [Shape.rowMajor_val_two, Shape.rowMajor_val_three]
  show e.val * 8192 + o.val = (e.val * 1 + 0) * 8192 + o.val
  omega

/-- So the two spellings of the grouped product agree. -/
theorem moe3_shapeCast (x : SX.Idx → EReal) (w : SW.Idx → EReal) (b : SB.Idx → EReal) (h : SB.ShapeCasts SB3) :
    moe3 x w (shapeCast SB3 b h) = moe x w b := by
  funext i
  unfold moe3 moe moeAt3 moeAt
  rw [bias3_apply]

end Cert.MoE

end
-- ==== Proof.Tile.lean ====
/-
  One tile of the grouped product, entry by entry.

  At a grid point the tiled program holds a [512, 2048] block `a` of token rows, a [1, 1024, 2048] block `u`
  of one expert's weight rows and a [1, 1, 1024] block `v` of that expert's bias. It stores

      tile[p, q] = Σ_k a[p, k] · u[0, q, k]  +  v[0, 0, q]:

  the narrowing of the operands to a shorter float format is the identity on extended reals, the product into
  a zero accumulator is the plain sum of products over the one contracted axis (both operands contract their
  LAST axis: the weight block is used untransposed), the reshapes drop unit axes, and the bias row is broadcast
  down the 512 rows.
-/
import proofs.«153389_j2834678415366_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.MoE.Tile

open Cert.KernelIdeal Cert.KernelIdeal.Gen Idealize.ShloMosaic Idealize.ShloMosaic.ValueIdx

/-! ## Which operand entries the product at (p, q), contraction position k, multiplies -/

/-- The left operand is read in the output's row … -/
theorem lhs_row (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide),
    dif_pos (show (0 : Fin S512x2048.rank) ∈ dot_S512x2048_S1024x2048_S512x1024_1_1_0_0_n_n.lhsNonContracting by decide)]
  rfl
/-- … at the contraction position. -/
theorem lhs_contr (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
/-- The right operand is read in the row the output's COLUMN names … -/
theorem rhs_row (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide),
    dif_pos (show (0 : Fin S1024x2048.rank) ∈ dot_S512x2048_S1024x2048_S512x1024_1_1_0_0_n_n.rhsNonContracting by decide)]
  rfl
/-- … at the contraction position. -/
theorem rhs_contr (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- The product into a zero accumulator, at (p, q): Σ_k a[p, k] · b[q, k]. -/
theorem product_apply (a : FVec Ideal S512x2048 .bf16) (b : FVec Ideal S1024x2048 .bf16) (p : Fin 512) (q : Fin 1024) :
    matmul (F := Ideal) dot_S512x2048_S1024x2048_S512x1024_1_1_0_0_n_n none a b (constant S512x1024 .f32 0x00000000#32) (ix2 p q)
      = ∑ k : Fin 2048, a (ix2 p k) * b (ix2 q k) := by
  show FloatOps.matmul dot_S512x2048_S1024x2048_S512x1024_1_1_0_0_n_n none a b (constant S512x1024 .f32 0x00000000#32) (ix2 p q) = _
  rw [Ideal.matmul_constant_zero_apply, ← Equiv.sum_comp (ValueIdx.contrEquiv1 dot_S512x2048_S1024x2048_S512x1024_1_1_0_0_n_n 2048 rfl rfl).symm]
  refine Finset.sum_congr rfl fun k _ => ?_
  have hk := ValueIdx.contrEquiv1_symm_val dot_S512x2048_S1024x2048_S512x1024_1_1_0_0_n_n 2048 rfl rfl k
  have el : dot_S512x2048_S1024x2048_S512x1024_1_1_0_0_n_n.lhsIdx (ix2 p q) ((ValueIdx.contrEquiv1 dot_S512x2048_S1024x2048_S512x1024_1_1_0_0_n_n 2048 rfl rfl).symm k) = ix2 p k := funext fun d => Fin.ext (by
    match d with
    | ⟨0, _⟩ => exact lhs_row _ _
    | ⟨1, _⟩ => exact (lhs_contr _ _).trans hk)
  have er : dot_S512x2048_S1024x2048_S512x1024_1_1_0_0_n_n.rhsIdx (ix2 p q) ((ValueIdx.contrEquiv1 dot_S512x2048_S1024x2048_S512x1024_1_1_0_0_n_n 2048 rfl rfl).symm k) = ix2 q k := funext fun d => Fin.ext (by
    match d with
    | ⟨0, _⟩ => exact rhs_row _ _
    | ⟨1, _⟩ => exact (rhs_contr _ _).trans hk)
  rw [el, er]

/-! ## The layout steps -/

/-- Dropping the weight block's leading unit axis: (q, k) reads (0, q, k). -/
theorem weight_rows_apply (u : S1x1024x2048.Idx → EReal) (h : S1x1024x2048.ShapeCasts S1024x2048) (q : Fin 1024) (k : Fin 2048) :
    shapeCast S1024x2048 u h (ix2 q k) = u (ix3 (0 : Fin 1) q k) := by
  refine shapeCast_apply u h (ix2 q k) (ix3 (0 : Fin 1) q k) ?_
  rw [Shape.rowMajor_val_three, Shape.rowMajor_val_two]
  show ((0 : Nat) * 1024 + q.val) * 2048 + k.val = q.val * 2048 + k.val
  omega

/-- Dropping one of the bias block's unit axes: (0, q) reads (0, 0, q). -/
theorem bias_row_apply (v : S1x1x1024.Idx → EReal) (h : S1x1x1024.ShapeCasts S1x1024) (q : Fin 1024) :
    shapeCast S1x1024 v h (ix2 (0 : Fin 1) q) = v (ix3 (0 : Fin 1) (0 : Fin 1) q) := by
  refine shapeCast_apply v h (ix2 (0 : Fin 1) q) (ix3 (0 : Fin 1) (0 : Fin 1) q) ?_
  rw [Shape.rowMajor_val_three, Shape.rowMajor_val_two]
  show ((0 : Nat) * 1 + 0) * 1024 + q.val = (0 : Nat) * 1024 + q.val
  omega

/-- The bias row broadcast down the rows: (p, q) reads (0, q). -/
theorem bias_bcast_apply (z : S1x1024.Idx → EReal) (h : S1x1024.Broadcasts S512x1024) (p : Fin 512) (q : Fin 1024) :
    broadcastTo S512x1024 z h (ix2 p q) = z (ix2 (0 : Fin 1) q) := by
  refine broadcastTo_apply z h (ix2 p q) (ix2 (0 : Fin 1) q) fun a => ?_
  match a with
  | ⟨0, _⟩ => show (0 : Nat) = if (1 : Nat) = 1 then 0 else _; rw [if_pos rfl]
  | ⟨1, _⟩ => show q.val = if (1024 : Nat) = 1 then 0 else q.val; rw [if_neg (by decide)]

/-! ## The tile -/

/-- What the body stores, at (p, q). -/
theorem tile_apply (a : Vec Ideal S512x2048 .f32) (u : Vec Ideal S1x1024x2048 .f32) (v : Vec Ideal S1x1x1024 .f32)
    (p : Fin 512) (q : Fin 1024) :
    k0_pay1 (F := Ideal) a u v (ix2 p q)
      = (∑ k : Fin 2048, a (ix2 p k) * u (ix3 (0 : Fin 1) q k)) + v (ix3 (0 : Fin 1) (0 : Fin 1) q) := by
  unfold k0_pay1
  refine (addf_apply _ _ _).trans ?_
  refine congrArg₂ (· + ·) ((product_apply _ _ p q).trans (Finset.sum_congr rfl fun k _ => ?_)) ?_
  · exact congrArg (a (ix2 p k) * ·) (weight_rows_apply u _ q k)
  · exact (bias_bcast_apply _ _ p q).trans (bias_row_apply v _ q)

end Cert.MoE.Tile

end
-- ==== Proof.Tiling.lean ====
/-
  From tiles to the whole result.

  The tiled program runs over a 16 × 2 × 8 grid, 256 points in row-major order. Point `t` owns output tile
  (t / 8, t % 8): rows (t / 8) · 512 …, columns (t % 8) · 1024 …, of the [16384, 8192] result. It reads the input
  rows of the same row tile, the weight rows (t % 8) · 1024 … of expert t / 16, and that expert's bias at the same
  columns. A row (t / 8) · 512 + p of that tile belongs to expert ((t / 8) · 512 + p) / 1024 = t / 16, so what the
  point writes back is exactly its tile of the grouped product; the 256 tiles cover every index of the result; so
  the result array ends holding the grouped product of the three argument arrays.
-/
import proofs.«153389_j2834678415366_1_alg».proof.Proof.Gen.KernelIdeal.Value
import proofs.«153389_j2834678415366_1_alg».proof.Proof.Spec
import proofs.«153389_j2834678415366_1_alg».proof.Proof.Tile
import Idealize.ShloMosaic.Lib.StableHlo.Run

set_option maxRecDepth 16384

noncomputable section

open scoped BigOperators

namespace Cert.MoE.Tiling

open Cert.KernelIdeal Cert.KernelIdeal.Gen Idealize.ShloMosaic Idealize.ShloMosaic.TcCoe Idealize.SL.Sem
open Idealize.ShloMosaic.ValueIdx Cert.MoE
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block each window is on at point `t`, in closed form (decided over the 256 points): output tile
    (t / 8, t % 8); input row tile t / 8; weight rows tile t % 8 of expert t / 16; bias columns tile t % 8 of
    expert t / 16. -/
theorem block_indices : ∀ t : Fin cfg0.N,
    win0_3.index t (0 : Fin 2) = t.val / 8 ∧ win0_3.index t (1 : Fin 2) = t.val % 8
    ∧ win0_0.index t (0 : Fin 2) = t.val / 8 ∧ win0_0.index t (1 : Fin 2) = 0
    ∧ win0_1.index t (0 : Fin 3) = t.val / 16 ∧ win0_1.index t (1 : Fin 3) = t.val % 8 ∧ win0_1.index t (2 : Fin 3) = 0
    ∧ win0_2.index t (0 : Fin 3) = t.val / 16 ∧ win0_2.index t (1 : Fin 3) = 0 ∧ win0_2.index t (2 : Fin 3) = t.val % 8 :=
  (by decide +kernel : ∀ t : Fin grid0.N, _)

/-- The bias array the tiles read is the [16, 1, 8192] reshape of the bias argument. -/
theorem bias_array (c : Dev nD) :
    (V m c main_v0 : S16x1x8192.Idx → EReal)
      = shapeCast S16x1x8192 (m ((c : Thread nD τ).loc main_arg3)) shapeCasts_S16x8192_S16x1x8192 := by
  dsimp only [Gen.V, Gen.hostOps0]; after_results; rfl

/-- WHAT POINT `t` WRITES BACK is its tile of the grouped product of the arrays the region finds. -/
theorem flushed_eq (c : Dev nD) (t : Fin cfg0.N) :
    (dats m 0 c).flushed 3 t
      = ((cfg0.win 3).blk t).view.read (Elt Ideal) (moe3 (V m c main_arg0) (V m c main_arg2) (V m c main_v0)) := by
  rw [Value.flushed3]
  unfold out0_3
  rw [View.canon_unit_zero zeros2]
  simp only [View.ld_unit_zero (S := S512x2048) zeros2, View.ld_unit_zero (S := S1x1024x2048) zeros3,
    View.ld_unit_zero (S := S1x1x1024) zeros3]
  obtain ⟨e30, e31, e00, e01, e10, e11, e12, e20, e21, e22⟩ := block_indices t
  have ht : t.val < 256 := lt_of_lt_of_eq t.isLt N_0
  funext j
  obtain ⟨p, q, rfl⟩ : ∃ (p : Fin 512) (q : Fin 1024), j = ix2 p q := ⟨j 0, j 1, eq_ix2 j⟩
  have hp : p.val < 512 := p.isLt
  have hq : q.val < 1024 := q.isLt
  -- the row and the column of the result this entry of the tile is
  let R : Fin 16384 := ⟨t.val / 8 * 512 + p.val, by omega⟩
  let O : Fin 8192 := ⟨t.val % 8 * 1024 + q.val, by omega⟩
  have hy : ((cfg0.win 3).blk t).view.emb (ix2 p q) = ix2 R O := by
    funext a; apply Fin.ext
    match a with
    | ⟨0, _⟩ => show win0_3.index t (0 : Fin 2) * 512 + 1 * p.val = t.val / 8 * 512 + p.val; omega
    | ⟨1, _⟩ => show win0_3.index t (1 : Fin 2) * 1024 + 1 * q.val = t.val % 8 * 1024 + q.val; omega
  have hx : ∀ k : Fin 2048, ((cfg0.win 0).blk t).view.emb (ix2 p k) = ix2 R k := fun k => by
    have hk : k.val < 2048 := k.isLt
    funext a; apply Fin.ext
    match a with
    | ⟨0, _⟩ => show win0_0.index t (0 : Fin 2) * 512 + 1 * p.val = t.val / 8 * 512 + p.val; omega
    | ⟨1, _⟩ => show win0_0.index t (1 : Fin 2) * 2048 + 1 * k.val = k.val; omega
  have hw : ∀ k : Fin 2048, ((cfg0.win 1).blk t).view.emb (ix3 (0 : Fin 1) q k) = ix3 (expertOf R) O k := fun k => by
    have hk : k.val < 2048 := k.isLt
    funext a; apply Fin.ext
    match a with
    | ⟨0, _⟩ => show win0_1.index t (0 : Fin 3) * 1 + 1 * 0 = (t.val / 8 * 512 + p.val) / 1024; omega
    | ⟨1, _⟩ => show win0_1.index t (1 : Fin 3) * 1024 + 1 * q.val = t.val % 8 * 1024 + q.val; omega
    | ⟨2, _⟩ => show win0_1.index t (2 : Fin 3) * 2048 + 1 * k.val = k.val; omega
  have hb : ((cfg0.win 2).blk t).view.emb (ix3 (0 : Fin 1) (0 : Fin 1) q) = ix3 (expertOf R) (0 : Fin 1) O := by
    funext a; apply Fin.ext
    match a with
    | ⟨0, _⟩ => show win0_2.index t (0 : Fin 3) * 1 + 1 * 0 = (t.val / 8 * 512 + p.val) / 1024; omega
    | ⟨1, _⟩ => show win0_2.index t (1 : Fin 3) * 1 + 1 * 0 = 0; omega
    | ⟨2, _⟩ => show win0_2.index t (2 : Fin 3) * 1024 + 1 * q.val = t.val % 8 * 1024 + q.val; omega
  show k0_pay1 (iblk m c 0 t) (iblk m c 1 t) (iblk m c 2 t) (ix2 p q)
    = moe3 (V m c main_arg0) (V m c main_arg2) (V m c main_v0) (((cfg0.win 3).blk t).view.emb (ix2 p q))
  refine (Tile.tile_apply (iblk m c 0 t) (iblk m c 1 t) (iblk m c 2 t) p q).trans ?_
  rw [hy]
  show _ = moeAt3 (V m c main_arg0) (V m c main_arg2) (V m c main_v0) R O
  unfold moeAt3
  refine congrArg₂ (· + ·) (Finset.sum_congr rfl fun k _ => congrArg₂ (· * ·) ?_ ?_) ?_
  · exact congrArg (V m c main_arg0) (hx k)
  · exact congrArg (V m c main_arg2) (hw k)
  · exact congrArg (V m c main_v0) hb

/-- An index of the result is in point `t`'s tile iff each coordinate is in the tile's range on its axis. -/
theorem mem_tile (t : Fin cfg0.N) (i : S16384x8192.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v1).slice (win0_3.rect t)).set ↔ _
  rw [View.set_slice_whole, Rect.mem_set_unit]
  exact Iff.rfl

/-- EVERY index of the result is in some point's tile: (r, o) in that of point (r / 512) · 8 + o / 1024. -/
theorem tiles_cover (i : S16384x8192.Idx) :
    ∃ t : Fin cfg0.N, (cfg0.win 3).flush t = true ∧ i ∈ ((cfg0.win 3).blk t).view.set := by
  have h0 : (i 0).val < 16384 := (i 0).isLt
  have h1 : (i 1).val < 8192 := (i 1).isLt
  have hN : (i 0).val / 512 * 8 + (i 1).val / 1024 < cfg0.N := by
    show _ < grid0.N
    rw [N_0]; omega
  refine ⟨⟨_, hN⟩, flush0_3 _, ?_⟩
  rw [mem_tile]
  obtain ⟨e30, e31, -⟩ := block_indices ⟨_, hN⟩
  have f0 : win0_3.index ⟨_, hN⟩ (0 : Fin 2) = ((i 0).val / 512 * 8 + (i 1).val / 1024) / 8 := e30
  have f1 : win0_3.index ⟨_, hN⟩ (1 : Fin 2) = ((i 0).val / 512 * 8 + (i 1).val / 1024) % 8 := e31
  intro a
  match a with
  | ⟨0, _⟩ =>
    show win0_3.index ⟨_, hN⟩ (0 : Fin 2) * 512 ≤ (i 0).val ∧ (i 0).val < win0_3.index ⟨_, hN⟩ (0 : Fin 2) * 512 + 512
    omega
  | ⟨1, _⟩ =>
    show win0_3.index ⟨_, hN⟩ (1 : Fin 2) * 1024 ≤ (i 1).val ∧ (i 1).val < win0_3.index ⟨_, hN⟩ (1 : Fin 2) * 1024 + 1024
    omega

/-- THE RESULT ARRAY after the run is the grouped product of the argument arrays. -/
theorem result_array (c : Dev nD) :
    (dats m 0 c).arrAt 3 cfg0.N
      = moe (m ((c : Thread nD τ).loc main_arg0)) (m ((c : Thread nD τ).loc main_arg2)) (m ((c : Thread nD τ).loc main_arg3)) := by
  rw [(dats m 0 c).arrAt_eq_of_cover 3 _ (fun t _ => flushed_eq m c t) tiles_cover, V_main_arg0, V_main_arg2,
    bias_array, moe3_shapeCast]

/-- The tiled program's run, read: the result at the grouped product of the arguments, the arguments unchanged. -/
theorem run : θ_run defs (onTc (τ := τ) (main (F := Ideal))) ⟨m, fun _ => 0, ρ⟩ fun r => ∀ c : Dev nD,
      r.2.mem ((c : Thread nD τ).loc main_v1)
        = moe (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_array m c), (h c).2⟩) (Value.run_blocks m ρ)

end Cert.MoE.Tiling

end
-- ==== Proof.Plain.lean ====
/-
  The plain program computes the grouped product.

  It views the [16384, 2048] input as [16, 1024, 2048] (row r becomes (r / 1024, r % 1024)), multiplies batch by
  batch against the [16, 8192, 2048] weights contracting the last axis of both, adds the bias broadcast over the
  1024 rows of each batch, and views the [16, 1024, 8192] result as [16384, 8192]. Read back at (r, o): batch
  r / 1024, row r % 1024, which is row r of the input again; weight row o of expert r / 1024; bias (r / 1024, o).
-/
import proofs.«153389_j2834678415366_1_alg».proof.Proof.Gen.ReferenceIdeal.Read
import proofs.«153389_j2834678415366_1_alg».proof.Proof.Spec

noncomputable section

open scoped BigOperators

namespace Cert.MoE.Plain

open Cert.ReferenceIdeal Cert.ReferenceIdeal.Read Idealize.ShloMosaic Idealize.ShloMosaic.ValueIdx Cert.MoE

/-- The input entry the product at (r, o), position k reads: through the two reshapes, (r, k). -/
theorem input_idx (i : S16384x8192.Idx) (k : Fin 2048) :
    idx_main_v0 (lidx_main_v1 (idx_main_v5 i) k) = ix2 (n0 := 16384) ⟨(i 0).val, (i 0).isLt⟩ k := by
  have h0 : (i 0).val < 16384 := (i 0).isLt
  have h1 : (i 1).val < 8192 := (i 1).isLt
  have hk : k.val < 2048 := k.isLt
  funext a; apply Fin.ext
  match a with
  | ⟨0, _⟩ =>
    show ((((i 0).val * 8192 + (i 1).val) / 8388608 * 1024 + ((i 0).val * 8192 + (i 1).val) / 8192 % 1024) * 2048 + k.val) / 2048 = (i 0).val
    omega
  | ⟨1, _⟩ =>
    show ((((i 0).val * 8192 + (i 1).val) / 8388608 * 1024 + ((i 0).val * 8192 + (i 1).val) / 8192 % 1024) * 2048 + k.val) % 2048 = k.val
    omega

/-- The weight entry it reads: (r / 1024, o, k). -/
theorem weight_idx (i : S16384x8192.Idx) (k : Fin 2048) :
    ridx_main_v1 (idx_main_v5 i) k = ix3 (expertOf ⟨(i 0).val, (i 0).isLt⟩) (⟨(i 1).val, (i 1).isLt⟩ : Fin 8192) k := by
  have h0 : (i 0).val < 16384 := (i 0).isLt
  have h1 : (i 1).val < 8192 := (i 1).isLt
  funext a; apply Fin.ext
  match a with
  | ⟨0, _⟩ => show ((i 0).val * 8192 + (i 1).val) / 8388608 = (i 0).val / 1024; omega
  | ⟨1, _⟩ => show ((i 0).val * 8192 + (i 1).val) % 8192 = (i 1).val; omega
  | ⟨2, _⟩ => rfl

/-- The bias entry added at (r, o): (r / 1024, o). -/
theorem bias_idx (i : S16384x8192.Idx) :
    idx_main_v2 (idx_main_v3 (idx_main_v5 i)) = ix2 (expertOf ⟨(i 0).val, (i 0).isLt⟩) (⟨(i 1).val, (i 1).isLt⟩ : Fin 8192) := by
  have h0 : (i 0).val < 16384 := (i 0).isLt
  have h1 : (i 1).val < 8192 := (i 1).isLt
  funext a; apply Fin.ext
  match a with
  | ⟨0, _⟩ => show ((i 0).val * 8192 + (i 1).val) / 8388608 = (i 0).val / 1024; omega
  | ⟨1, _⟩ => show ((i 0).val * 8192 + (i 1).val) % 8192 = (i 1).val; omega

/-- The plain program's result is the grouped product of its arguments. -/
theorem result_eq (x : (⟨S16384x2048, .f32⟩ : BufTy).Contents (Elt Ideal)) (w : (⟨S16x8192x2048, .f32⟩ : BufTy).Contents (Elt Ideal))
    (b : (⟨S16x8192, .f32⟩ : BufTy).Contents (Elt Ideal)) :
    val_main_v5 (F := Ideal) x w b = moe x w b := by
  funext i
  rw [val_main_v5_apply, val_main_v4_apply, val_main_v1_apply, val_main_v3_apply, val_main_v2_apply]
  simp only [val_main_v0_apply, input_idx, weight_idx, bias_idx]
  rfl

end Cert.MoE.Plain

end
-- ==== Proof.lean ====
/-
  Grouped matrix product of a mixture of experts: the tiled program against the plain one.

  Input rows come sorted by expert in runs of 1024. Both programs compute, for row `r` and output feature `o`,

      y[r, o] = Σ_k x[r, k] · w[r / 1024, o, k]  +  b[r / 1024, o]

  (Proof/Spec.lean). The tiled program does it tile by tile over a 16 × 2 × 8 grid — a [512, 2048] block of rows
  times the transpose of a [1024, 2048] block of one expert's weight rows, plus a [1, 1024] bias row (Proof/Tile.lean,
  Proof/Tiling.lean); the plain program as one batched product over the [16, 1024, 2048] view of the input
  (Proof/Plain.lean). Over the extended reals the narrowing of the product's operands to a shorter float format is
  the identity and both sides are the same sum of the same products in the same order, so no law of arithmetic
  beyond reindexing is used and the inputs' finiteness is never opened. The integer argument (the per-expert
  counts) is read by neither program.
-/
import proofs.«153389_j2834678415366_1_alg».proof.Defs
import proofs.«153389_j2834678415366_1_alg».proof.Proof.Gen.Kernel
import proofs.«153389_j2834678415366_1_alg».proof.Proof.Gen.Kernel.Skeleton
import proofs.«153389_j2834678415366_1_alg».proof.Proof.Gen.Kernel.Launch
import proofs.«153389_j2834678415366_1_alg».proof.Proof.Gen.Kernel.Points
import proofs.«153389_j2834678415366_1_alg».proof.Proof.Gen.Kernel.Frame
import proofs.«153389_j2834678415366_1_alg».proof.Proof.Gen.KernelIdeal
import proofs.«153389_j2834678415366_1_alg».proof.Proof.Gen.KernelIdeal.Skeleton
import proofs.«153389_j2834678415366_1_alg».proof.Proof.Gen.KernelIdeal.Launch
import proofs.«153389_j2834678415366_1_alg».proof.Proof.Gen.KernelIdeal.Points
import proofs.«153389_j2834678415366_1_alg».proof.Proof.Gen.KernelIdeal.Frame
import proofs.«153389_j2834678415366_1_alg».proof.Proof.Gen.ReferenceIdeal
import proofs.«153389_j2834678415366_1_alg».proof.Proof.Gen.Pre_finite_inputs
import proofs.«153389_j2834678415366_1_alg».proof.Proof.Gen.KernelIdeal.Value
import proofs.«153389_j2834678415366_1_alg».proof.Proof.Gen.ReferenceIdeal.Run
import proofs.«153389_j2834678415366_1_alg».proof.Proof.Gen.ReferenceIdeal.Read
import proofs.«153389_j2834678415366_1_alg».proof.Proof.Spec
import proofs.«153389_j2834678415366_1_alg».proof.Proof.Tile
import proofs.«153389_j2834678415366_1_alg».proof.Proof.Tiling
import proofs.«153389_j2834678415366_1_alg».proof.Proof.Plain
import Idealize.ShloMosaic.Adequacy
import Idealize.ShloMosaic.Init

noncomputable section

namespace Cert.Proof

open Idealize.ShloMosaic Idealize.ShloMosaic.TcCoe Idealize.SL.Sem

/-- The tiled program as printed runs to the end and leaves its arguments alone. -/
theorem frame_tiled : Cert.frame_Kernel := fun m ρ _ => Cert.Kernel.Gen.frame m ρ

/-- So does its reading over the extended reals. -/
theorem frame_tiled_ideal : Cert.frame_KernelIdeal := fun m ρ _ => Cert.KernelIdeal.Gen.frame m ρ

/-- The plain program runs to the end and leaves its arguments alone: its run, the result forgotten. -/
theorem frame_plain : Cert.frame_ReferenceIdeal := fun m ρ _ =>
  (θ_run Cert.ReferenceIdeal.defs _ _).mono (fun _ h c => (h c).2) (Cert.ReferenceIdeal.Value.run (F := Ideal) m ρ)

/-- From arguments that agree, the tiled program's result array and the plain program's both end at the grouped
    product of those arguments. -/
theorem same_result : Cert.algebraic_KernelIdeal_ReferenceIdeal := by
  intro m ρ m' ρ' _ hagree
  refine ⟨_, Cert.MoE.Tiling.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.MoE.Plain.result_eq, (hagree c).1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_tiled, frame_tiled_ideal, frame_plain, trivial, same_result⟩

end Cert.Proof

end
